-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v0)) (v2 : (c : Dev Cert.KernelIdeal.nD) → Buf (Elt Ideal) ((c.tc : Thread Cert.KernelIdeal.nD Cert.KernelIdeal.τ).loc Cert.KernelIdeal.main_v35)) (v3 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_v1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S128x256 : Shape := ⟨2, ![128, 256]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg5 : IVec S2x1600000 32) (main_v30 : IVec S_ 1) (main_v34 : IVec S1600000 1) : IVec S_ 1 :=
  let main_c_11 : IVec S_ 1 := constantI S_ 1 1#1
  let main_v35 : IVec S_ 1 := (fun x v => Host.reduce IntOp.andi x v reducesTo_S1600000_S_d0 h_S_) main_v34 main_c_11
  let main_v36 : IVec S_ 1 := andi main_v30 main_v35
  let main_v37 : IVec S1x1600000 32 := (extractStridedSlice S1x1600000 ![0, 0] · slices_S2x1600000_S1x1600000_0_0) main_arg5
  let main_v38 : IVec S1600000 32 := shapeCast S1600000 main_v37 shapeCasts_S1x1600000_S1600000
  let main_c_12 : IVec S_ 32 := constantI S_ 32 100000#32
  let main_v39 : IVec S1600000 32 := broadcastInDim S1600000 ![] bcast_S_S1600000 main_c_12
  let main_v40 : IVec S1600000 1 := cmpi .slt main_v38 main_v39
  let main_c_13 : IVec S_ 1 := constantI S_ 1 1#1
  let main_v41 : IVec S_ 1 := (fun x v => Host.reduce IntOp.andi x v reducesTo_S1600000_S_d0 h_S_) main_v40 main_c_13
  let main_v42 : IVec S_ 1 := andi main_v36 main_v41
  main_v42

def fn_part1 {F : FTy → Type} [FloatOps F] (main_arg4 : IVec S2x1600000 32) (main_arg5 : IVec S2x1600000 32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : IVec S1x1600000 32 := (extractStridedSlice S1x1600000 ![0, 0] · slices_S2x1600000_S1x1600000_0_0) main_arg4
  let main_v20 : IVec S1600000 32 := shapeCast S1600000 main_v19 shapeCasts_S1x1600000_S1600000
  let main_c_6 : IVec S_ 32 := constantI S_ 32 4294867296#32
  let main_v21 : IVec S1600000 32 := broadcastInDim S1600000 ![] bcast_S_S1600000 main_c_6
  let main_v22 : IVec S1600000 1 := cmpi .sge main_v20 main_v21
  let main_c_7 : IVec S_ 1 := constantI S_ 1 1#1
  let main_v23 : IVec S_ 1 := (fun x v => Host.reduce IntOp.andi x v reducesTo_S1600000_S_d0 h_S_) main_v22 main_c_7
  let main_v24 : IVec S_ 1 := andi main_v18 main_v23
  let main_v25 : IVec S1x1600000 32 := (extractStridedSlice S1x1600000 ![0, 0] · slices_S2x1600000_S1x1600000_0_0) main_arg4
  let main_v26 : IVec S1600000 32 := shapeCast S1600000 main_v25 shapeCasts_S1x1600000_S1600000
  let main_c_8 : IVec S_ 32 := constantI S_ 32 100000#32
  let main_v27 : IVec S1600000 32 := broadcastInDim S1600000 ![] bcast_S_S1600000 main_c_8
  let main_v28 : IVec S1600000 1 := cmpi .slt main_v26 main_v27
  let main_c_9 : IVec S_ 1 := constantI S_ 1 1#1
  let main_v29 : IVec S_ 1 := (fun x v => Host.reduce IntOp.andi x v reducesTo_S1600000_S_d0 h_S_) main_v28 main_c_9
  let main_v30 : IVec S_ 1 := andi main_v24 main_v29
  let main_v31 : IVec S1x1600000 32 := (extractStridedSlice S1x1600000 ![0, 0] · slices_S2x1600000_S1x1600000_0_0) main_arg5
  let main_v32 : IVec S1600000 32 := shapeCast S1600000 main_v31 shapeCasts_S1x1600000_S1600000
  let main_c_10 : IVec S_ 32 := constantI S_ 32 4294867296#32
  let main_v33 : IVec S1600000 32 := broadcastInDim S1600000 ![] bcast_S_S1600000 main_c_10
  let main_v34 : IVec S1600000 1 := cmpi .sge main_v32 main_v33
  fn_part2 (F := F) main_arg5 main_v30 main_v34

def fn {F : FTy → Type} [FloatOps F] (main_arg0 : FVec F S100000x256 .f32) (main_arg1 : FVec F S100000x256 .f32) (main_arg2 : FVec F S128x256 .f32) (main_arg3 : FVec F S128x256 .f32) (main_arg4 : IVec S2x1600000 32) (main_arg5 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_v13 main_v16
-- ==== Kernel.lean ====
abbrev S100000x256 : Shape := ⟨2, ![100000, 256]⟩
abbrev S128x256 : Shape := ⟨2, ![128, 256]⟩
abbrev S2x1600000 : Shape := ⟨2, ![2, 1600000]⟩
abbrev S100000x128 : Shape := ⟨2, ![100000, 128]⟩
abbrev S5000x256 : Shape := ⟨2, ![5000, 256]⟩
abbrev S5000x128 : Shape := ⟨2, ![5000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 94
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S128x256, .f32⟩
  | .hbm, ⟨3, _⟩ => ⟨S128x256, .f32⟩
  | .hbm, ⟨4, _⟩ => ⟨S2x1600000, .i32⟩
  | .hbm, ⟨5, _⟩ => ⟨S2x1600000, .i32⟩
  | .hbm, ⟨6, _⟩ => ⟨S100000x128, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1, .i32⟩
  | .hbm, ⟨21, _⟩ => ⟨S_, .i32⟩
  | .hbm, ⟨22, _⟩ => ⟨S1600000x1, .i32⟩
  | .hbm, ⟨23, _⟩ => ⟨S1600000x1, .i1⟩
  | .hbm, ⟨24, _⟩ => ⟨S1x1, .i32⟩
  | .hbm, ⟨25, _⟩ => ⟨S1600000x1, .i32⟩
  | .hbm, ⟨26, _⟩ => ⟨S1600000x1, .i1⟩
  | .hbm, ⟨27, _⟩ => ⟨S1600000x1, .i1⟩
  | .hbm, ⟨28, _⟩ => ⟨S_, .i1⟩
  | .hbm, ⟨29, _⟩ => ⟨S1600000, .i1⟩
  | .hbm, ⟨30, _⟩ => ⟨S1600000x128, .f32⟩
  | .hbm, ⟨31, _⟩ => ⟨S1600000x128, .i1⟩
  | .hbm, ⟨32, _⟩ => ⟨S_, .f32⟩
  | .hbm, ⟨33, _⟩ => ⟨S1600000x128, .f32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S_, .f32⟩
  | .hbm, ⟨40, _⟩ => ⟨S1600000, .f32⟩
  | .hbm, ⟨41, _⟩ => ⟨S_, .f32⟩
  | .hbm, ⟨42, _⟩ => ⟨S100000, .f32⟩
  | .hbm, ⟨43, _⟩ => ⟨S1600000x1, .i32⟩
  | .hbm, ⟨44, _⟩ => ⟨S100000, .f32⟩
  | .hbm, ⟨45, _⟩ => ⟨S_, .f32⟩
  | .hbm, ⟨46, _⟩ => ⟨S100000, .f32⟩
  | .hbm, ⟨47, _⟩ => ⟨S100000, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S1x1600000, .i32⟩
  | .hbm, ⟨52, _⟩ => ⟨S1600000, .i32⟩
  | .hbm, ⟨53, _⟩ => ⟨S1x1600000, .i32⟩
  | .hbm, ⟨54, _⟩ => ⟨S1600000, .i32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1, .i32⟩
  | .hbm, ⟨64, _⟩ => ⟨S_, .i32⟩
  | .hbm, ⟨65, _⟩ => ⟨S1600000x1, .i32⟩
  | .hbm, ⟨66, _⟩ => ⟨S1600000x1, .i1⟩
  | .hbm, ⟨67, _⟩ => ⟨S1x1, .i32⟩
  | .hbm, ⟨68, _⟩ => ⟨S1600000x1, .i32⟩
  | .hbm, ⟨69, _⟩ => ⟨S1600000x1, .i1⟩
  | .hbm, ⟨70, _⟩ => ⟨S1600000x1, .i1⟩
  | .hbm, ⟨71, _⟩ => ⟨S_, .i1⟩
  | .hbm, ⟨72, _⟩ => ⟨S1600000, .i1⟩
  | .hbm, ⟨73, _⟩ => ⟨S1600000x128, .f32⟩
  | .hbm, ⟨74, _⟩ => ⟨S1600000x128, .i1⟩
  | .hbm, ⟨75, _⟩ => ⟨S_, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S_, .f32⟩
  | .hbm, ⟨83, _⟩ => ⟨S1600000, .f32⟩
  | .hbm, ⟨84, _⟩ => ⟨S_, .f32⟩
  | .hbm, ⟨85, _⟩ => ⟨S100000, .f32⟩
  | .hbm, ⟨86, _⟩ => ⟨S1600000x1, .i32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x128, .f32⟩
  | .hbm, ⟨93, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S5000x128, .f32⟩
  | .local _ .vmem, ⟨4, _⟩ => ⟨S5000x128, .f32⟩
  | .local _ .vmem, ⟨5, _⟩ => ⟨S5000x256, .f32⟩
  | .local _ .vmem, ⟨6, _⟩ => ⟨S5000x256, .f32⟩
  | .local _ .vmem, ⟨7, _⟩ => ⟨S128x256, .f32⟩
  | .local _ .vmem, ⟨8, _⟩ => ⟨S5000x128, .f32⟩
  | .local _ .vmem, ⟨9, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_0 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_2 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v23 : Ref sig .tc := ⟨.hbm, 77, rfl⟩
abbrev main_cst_3 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_cst_4 : Ref sig .tc := ⟨.hbm, 82, rfl⟩
abbrev main_v27 : Ref sig .tc := ⟨.hbm, 83, rfl⟩
abbrev main_cst_5 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_cst_6 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S5000x256_S128x256_S5000x128_1_1_0_0_n_n_wf : DotDims.WF S5000x256 S128x256 S5000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def dot_S5000x256_S128x256_S5000x128_1_1_0_0_n_n : DotDims S5000x256 S128x256 S5000x128 where
  lhsContracting := [1]
  rhsContracting := [1]
  lhsNonContracting := [0]
  rhsNonContracting := [0]
  lhsBatch := []
  rhsBatch := []
  wf := dot_S5000x256_S128x256_S5000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S128x256 : Shape := ⟨2, ![128, 256]⟩
abbrev S2x1600000 : Shape := ⟨2, ![2, 1600000]⟩
abbrev S256x128 : Shape := ⟨2, ![256, 128]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 68
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S128x256, .f32⟩
  | .hbm, ⟨3, _⟩ => ⟨S128x256, .f32⟩
  | .hbm, ⟨4, _⟩ => ⟨S2x1600000, .i32⟩
  | .hbm, ⟨5, _⟩ => ⟨S2x1600000, .i32⟩
  | .hbm, ⟨6, _⟩ => ⟨S256x128, .f32⟩
  | .hbm, ⟨7, _⟩ => ⟨S100000x128, .f32⟩
  | .hbm, ⟨8, _⟩ => ⟨S256x128, .f32⟩
  | .hbm, ⟨9, _⟩ => ⟨S100000x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x1600000, .i32⟩
  | .hbm, ⟨40, _⟩ => ⟨S1600000, .i32⟩
  | .hbm, ⟨41, _⟩ => ⟨S1x1600000, .i32⟩
  | .hbm, ⟨42, _⟩ => ⟨S1600000, .i32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  transposes_S128x256_S256x128_1_0 : S128x256.Transposes [1, 0] S256x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.Proj.lean ====
/-
  The two Pallas regions compute the linear projections `x · Wᵀ`.

  Each region's grid has 20 points; point `t` reads rows `5000·t … 5000·t + 4999` of `x` (a [5000, 256] block), the
  whole [128, 256] weight, and writes the [5000, 128] block of products: entry (r, j) of a block is
  `Σₖ x[r, k] · w[j, k]` (the contraction is over the LAST axis of both operands; at the ideal values the bf16
  casts are the identity and the matmul into a zero accumulator is that plain sum). The 20 blocks tile the
  [100000, 128] result, so after the region the result array is `proj x w`, entry (r, j) = `Σₖ x[r, k] · w[j, k]`,
  whatever the arrays `x` and `w` were when the region was entered.
-/
import proofs.«419152_j39633958208184_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Proj

open Cert.KernelIdeal Cert.KernelIdeal.Gen
open Idealize.ShloMosaic Idealize.ShloMosaic.TcCoe Idealize.SL.Sem
open Idealize.ShloMosaic.Pipeline (Dat Cfg Window)

/-! ## The projection, index by index -/

/-- Row `i 0`, column `k` of the [100000, 256] input. -/
abbrev xIdx (i : S100000x128.Idx) (k : Fin 256) : S100000x256.Idx := fun a => match a with
  | ⟨0, _⟩ => ⟨(i 0).val, (i 0).isLt⟩
  | ⟨1, _⟩ => ⟨k.val, k.isLt⟩
/-- Row `i 1`, column `k` of the [128, 256] weight. -/
abbrev wIdx (i : S100000x128.Idx) (k : Fin 256) : S128x256.Idx := fun a => match a with
  | ⟨0, _⟩ => ⟨(i 1).val, (i 1).isLt⟩
  | ⟨1, _⟩ => ⟨k.val, k.isLt⟩

/-- `x · Wᵀ`: entry (r, j) is the sum over `k` of `x[r, k] · w[j, k]`. -/
def proj (x : FVec Ideal S100000x256 .f32) (w : FVec Ideal S128x256 .f32) : FVec Ideal S100000x128 .f32 :=
  fun i => ∑ k : Fin 256, x (xIdx i k) * w (wIdx i k)

/-! ## One block's products -/

/-- Row `y 0`, column `k` of a [5000, 256] block of the input. -/
abbrev bxIdx (y : S5000x128.Idx) (k : Fin 256) : S5000x256.Idx := fun a => match a with
  | ⟨0, _⟩ => ⟨(y 0).val, (y 0).isLt⟩
  | ⟨1, _⟩ => ⟨k.val, k.isLt⟩
/-- Row `y 1`, column `k` of the weight, read from a block index. -/
abbrev bwIdx (y : S5000x128.Idx) (k : Fin 256) : S128x256.Idx := fun a => match a with
  | ⟨0, _⟩ => ⟨(y 1).val, (y 1).isLt⟩
  | ⟨1, _⟩ => ⟨k.val, k.isLt⟩

theorem lhs_ax0 (i : S5000x128.Idx) (q : dot_S5000x256_S128x256_S5000x128_1_1_0_0_n_n.contr.Idx) :
    (dot_S5000x256_S128x256_S5000x128_1_1_0_0_n_n.lhsIdx i q 0).val = (i 0).val := by
  unfold DotDims.lhsIdx
  rw [dif_neg (show ¬(0 : Fin S5000x256.rank) ∈ dot_S5000x256_S128x256_S5000x128_1_1_0_0_n_n.lhsBatch by decide), dif_pos (show (0 : Fin S5000x256.rank) ∈ dot_S5000x256_S128x256_S5000x128_1_1_0_0_n_n.lhsNonContracting by decide)]
  rfl
theorem lhs_ax1 (i : S5000x128.Idx) (q : dot_S5000x256_S128x256_S5000x128_1_1_0_0_n_n.contr.Idx) :
    (dot_S5000x256_S128x256_S5000x128_1_1_0_0_n_n.lhsIdx i q 1).val = (q ⟨0, by decide⟩).val :=
  dot_S5000x256_S128x256_S5000x128_1_1_0_0_n_n.lhsIdx_val_of_single rfl i q
theorem rhs_ax0 (i : S5000x128.Idx) (q : dot_S5000x256_S128x256_S5000x128_1_1_0_0_n_n.contr.Idx) :
    (dot_S5000x256_S128x256_S5000x128_1_1_0_0_n_n.rhsIdx i q 0).val = (i 1).val := by
  unfold DotDims.rhsIdx
  rw [dif_neg (show ¬(0 : Fin S128x256.rank) ∈ dot_S5000x256_S128x256_S5000x128_1_1_0_0_n_n.rhsBatch by decide), dif_pos (show (0 : Fin S128x256.rank) ∈ dot_S5000x256_S128x256_S5000x128_1_1_0_0_n_n.rhsNonContracting by decide)]
  rfl
theorem rhs_ax1 (i : S5000x128.Idx) (q : dot_S5000x256_S128x256_S5000x128_1_1_0_0_n_n.contr.Idx) :
    (dot_S5000x256_S128x256_S5000x128_1_1_0_0_n_n.rhsIdx i q 1).val = (q ⟨0, by decide⟩).val :=
  dot_S5000x256_S128x256_S5000x128_1_1_0_0_n_n.rhsIdx_val_of_single rfl i q

/-- The body's arithmetic: the bf16 casts of both blocks, then the matmul into a zero accumulator. -/
def blockProd (x0 : Vec Ideal S5000x256 .f32) (x1 : Vec Ideal S128x256 .f32) : FVec Ideal S5000x128 .f32 :=
  matmul dot_S5000x256_S128x256_S5000x128_1_1_0_0_n_n none (truncf .bf16 x0 bitsLt_bf16_f32) (truncf .bf16 x1 bitsLt_bf16_f32)
    (constant S5000x128 .f32 0x00000000#32)

/-- Entry (r, j) of a block's products is the sum over `k` of `x0[r, k] · x1[j, k]`. -/
theorem blockProd_apply (x0 : Vec Ideal S5000x256 .f32) (x1 : Vec Ideal S128x256 .f32) (y : S5000x128.Idx) :
    blockProd x0 x1 y = ∑ k : Fin 256, x0 (bxIdx y k) * x1 (bwIdx y k) := by
  unfold blockProd
  simp only [matmul]
  rw [Ideal.matmul_constant_zero_apply, ← Equiv.sum_comp (ValueIdx.contrEquiv1 dot_S5000x256_S128x256_S5000x128_1_1_0_0_n_n 256 rfl rfl).symm]
  refine Finset.sum_congr rfl fun k _ => ?_
  have hk := ValueIdx.contrEquiv1_symm_val dot_S5000x256_S128x256_S5000x128_1_1_0_0_n_n 256 rfl rfl k
  have el : dot_S5000x256_S128x256_S5000x128_1_1_0_0_n_n.lhsIdx y ((ValueIdx.contrEquiv1 dot_S5000x256_S128x256_S5000x128_1_1_0_0_n_n 256 rfl rfl).symm k) = bxIdx y k := funext fun a => Fin.ext (by
    match a with
    | ⟨0, _⟩ => exact lhs_ax0 _ _
    | ⟨1, _⟩ => exact (lhs_ax1 _ _).trans hk)
  have er : dot_S5000x256_S128x256_S5000x128_1_1_0_0_n_n.rhsIdx y ((ValueIdx.contrEquiv1 dot_S5000x256_S128x256_S5000x128_1_1_0_0_n_n 256 rfl rfl).symm k) = bwIdx y k := funext fun a => Fin.ext (by
    match a with
    | ⟨0, _⟩ => exact rhs_ax0 _ _
    | ⟨1, _⟩ => exact (rhs_ax1 _ _).trans hk)
  rw [el, er]
  rfl

theorem pay0_eq (x0 : Vec Ideal S5000x256 .f32) (x1 : Vec Ideal S128x256 .f32) : k0_pay1 (F := Ideal) x0 x1 = blockProd x0 x1 := rfl
theorem pay1_eq (x0 : Vec Ideal S5000x256 .f32) (x1 : Vec Ideal S128x256 .f32) : k1_pay1 (F := Ideal) x0 x1 = blockProd x0 x1 := rfl

theorem hz : (![0, 0] : Fin 2 → Nat) = fun _ => 0 := funext fun a => by fin_cases a <;> rfl

/-! ## Region 0: the projection of `main_arg0` by `main_arg2` -/

section Region0
variable (V : (c : Dev nD) → (b : Ref sig .tc) → Buf (Elt Ideal) ((c : Thread nD τ).loc b))

/-- The printed index maps, decided over the 20 grid points: the input's row block and the output's row block at
    point `t` are both `t`; the weight's block and every column block stay at 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projection of the arrays the region was entered with. -/
theorem flushed0 (c : Dev nD) (t : Fin cfg0.N) :
    (dat0 (F := Ideal) V c).flushed 2 t = ((cfg0.win 2).blk t).view.read (Elt Ideal) (proj (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S128x256) hz]
  obtain ⟨e0, e1, e2, e3, e4, e5⟩ := idx_facts0 t
  funext j
  show blockProd (iblk0 V c 0 t) (iblk0 V c 1 t) j = proj (V c main_arg0) (V c main_arg2) (((cfg0.win 2).blk t).view.emb j)
  refine (blockProd_apply (iblk0 V c 0 t) (iblk0 V c 1 t) j).trans ?_
  unfold proj
  refine Finset.sum_congr rfl fun k _ => ?_
  have h0 : iblk0 V c 0 t (bxIdx j k) = V c main_arg0 (xIdx (((cfg0.win 2).blk t).view.emb j) k) := by
    show V c main_arg0 (((cfg0.win 0).blk t).view.emb (bxIdx j k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : iblk0 V c 1 t (bwIdx j k) = V c main_arg2 (wIdx (((cfg0.win 2).blk t).view.emb j) k) := by
    show V c main_arg2 (((cfg0.win 1).blk t).view.emb (bwIdx j k)) = _
    refine congrArg (V c main_arg2) (funext fun a => Fin.ext ?_)
    match a with
    | ⟨0, _⟩ => show win0_1.index t (0 : Fin 2) * 128 + 1 * (j 1).val = win0_2.index t (1 : Fin 2) * 128 + 1 * (j 1).val; omega
    | ⟨1, _⟩ => show win0_1.index t (1 : Fin 2) * 256 + 1 * k.val = k.val; omega
  rw [h0, h1]

/-- An index of the result is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row `r` of the result lies in the block of point `r / 5000`: the 20 blocks tile the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e0, e1, e2, e3, e4, e5⟩ := idx_facts0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk0]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 128 ≤ (i 1).val ∧ (i 1).val < win0_2.index ⟨(i 0).val / 5000, ht⟩ (1 : Fin 2) * 128 + 128; omega

/-- After region 0 its result array is the projection of the arrays it was entered with. -/
theorem final0 (c : Dev nD) : (dat0 (F := Ideal) V c).arrAt 2 cfg0.N = proj (V c main_arg0) (V c main_arg2) :=
  (dat0 (F := Ideal) V c).arrAt_eq_of_cover 2 (proj (V c main_arg0) (V c main_arg2)) (fun t _ => flushed0 V c t) cover0

end Region0

/-! ## Region 1: the projection of `main_arg1` by `main_arg3` -/

section Region1
variable (V : (c : Dev nD) → (b : Ref sig .tc) → Buf (Elt Ideal) ((c : Thread nD τ).loc b))

/-- The printed index maps of the second launch, decided over its 20 grid points: the input's row block and the
    output's row block at point `t` are both `t`; the weight's block and every column block stay at 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` of the second launch writes back is block `t` of the projection of the arrays it was entered with. -/
theorem flushed1 (c : Dev nD) (t : Fin cfg1.N) :
    (dat1 (F := Ideal) V c).flushed 2 t = ((cfg1.win 2).blk t).view.read (Elt Ideal) (proj (V c main_arg1) (V c main_arg3)) := by
  show (cfg1.win 2).cut (grid1.coords t) ((dat1 (F := Ideal) V c).after 2 t) = _
  rw [after1_2]
  unfold out1_2
  rw [View.canon_unit_zero hz]
  simp only [View.ld_unit_zero (S := S5000x256) hz, View.ld_unit_zero (S := S128x256) hz]
  obtain ⟨e0, e1, e2, e3, e4, e5⟩ := idx_facts1 t
  funext j
  show blockProd (iblk1 V c 0 t) (iblk1 V c 1 t) j = proj (V c main_arg1) (V c main_arg3) (((cfg1.win 2).blk t).view.emb j)
  refine (blockProd_apply (iblk1 V c 0 t) (iblk1 V c 1 t) j).trans ?_
  unfold proj
  refine Finset.sum_congr rfl fun k _ => ?_
  have h0 : iblk1 V c 0 t (bxIdx j k) = V c main_arg1 (xIdx (((cfg1.win 2).blk t).view.emb j) k) := by
    show V c main_arg1 (((cfg1.win 0).blk t).view.emb (bxIdx j k)) = _
    refine congrArg (V c main_arg1) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  have h1 : iblk1 V c 1 t (bwIdx j k) = V c main_arg3 (wIdx (((cfg1.win 2).blk t).view.emb j) k) := by
    show V c main_arg3 (((cfg1.win 1).blk t).view.emb (bwIdx j k)) = _
    refine congrArg (V c main_arg3) (funext fun a => Fin.ext ?_)
    match a with
    | ⟨0, _⟩ => show win1_1.index t (0 : Fin 2) * 128 + 1 * (j 1).val = win1_2.index t (1 : Fin 2) * 128 + 1 * (j 1).val; omega
    | ⟨1, _⟩ => show win1_1.index t (1 : Fin 2) * 256 + 1 * k.val = k.val; omega
  rw [h0, h1]

/-- An index of the second result is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v1).slice (win1_2.rect t)).set ↔ _
  rw [View.set_slice_whole, Rect.mem_set_unit]
  exact Iff.rfl

/-- Row `r` of the second result lies in the block of point `r / 5000`: the 20 blocks tile the array. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e0, e1, e2, e3, e4, e5⟩ := idx_facts1 ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk1]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
  | ⟨1, _⟩ => show win1_2.index ⟨(i 0).val / 5000, ht⟩ (1 : Fin 2) * 128 ≤ (i 1).val ∧ (i 1).val < win1_2.index ⟨(i 0).val / 5000, ht⟩ (1 : Fin 2) * 128 + 128; omega

/-- After region 1 its result array is the projection of the arrays it was entered with. -/
theorem final1 (c : Dev nD) : (dat1 (F := Ideal) V c).arrAt 2 cfg1.N = proj (V c main_arg1) (V c main_arg3) :=
  (dat1 (F := Ideal) V c).arrAt_eq_of_cover 2 (proj (V c main_arg1) (V c main_arg3)) (fun t _ => flushed1 V c t) cover1

end Region1

end Cert.KernelIdeal.Proj

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.Tail.lean ====
/-
  What both programs do after the projections, as named functions of the projected rows and an edge list.

  An edge list `ei : i32[2, 1600000]` gives each edge a source row `ei[0, e]` and a destination row `ei[1, e]`.
  The source index is wrapped the NumPy way (`wrapIdx`: a negative index counts from the end of the 100000 rows).
  `meanAgg rows dst` sums `rows[e, :]` into row `dst[e]` and divides each row by `max(degree, 1)`, the degree being
  the same scatter-add of ones. The idealized kernel's `take` in fill mode (`takeFill`) gathers the wrapped rows
  and then replaces every row whose wrapped index fails the range test `0 ≤ s ≤ 99999` by a fill value; the reference
  gathers the wrapped rows and nothing else. When every source index lies in `[-100000, 100000)` (`InRange`) every
  wrapped index passes the test, the mask is all ones, and the fill-mode take IS the plain gather (`takeFill_eq`):
  the fill value is never read.
-/
import proofs.«419152_j39633958208184_3_alg».proof.Proof.Gen.KernelIdeal
import proofs.«419152_j39633958208184_3_alg».proof.Proof.LibIndexWrap
import Idealize.ShloMosaic.PureOps.Ideal

noncomputable section

namespace Cert.KernelIdeal.Tail

open Cert.KernelIdeal Idealize.ShloMosaic

open Cert.KernelIdeal.Facts₀ Cert.KernelIdeal.Facts

/-- Row 0 of an edge list: the source node of each edge. -/
def srcOf (ei : IVec S2x1600000 32) : IVec S1600000 32 :=
  shapeCast S1600000 (extractStridedSlice S1x1600000 ![0, 0] ei slices_S2x1600000_S1x1600000_0_0) shapeCasts_S1x1600000_S1600000

/-- Row 1 of an edge list: the destination node of each edge. -/
def dstOf (ei : IVec S2x1600000 32) : IVec S1600000 32 :=
  shapeCast S1600000 (extractStridedSlice S1x1600000 ![1, 0] ei slices_S2x1600000_S1x1600000_1_0) shapeCasts_S1x1600000_S1600000

/-- The source indices wrapped into the 100000 rows (a negative index counts from the end), as a column. -/
def wrapIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The range test of a column of indices: edge `e` passes when `0 ≤ idx[e, 0] ≤ 99999`. -/
def inBounds (idx : IVec S1600000x1 32) : IVec S1600000 1 :=
  Host.reduce IntOp.andi
    (andi (cmpi .sge idx (broadcastInDim S1600000x1 ![] bcast_S_S1600000x1 (constantI S_ 32 0#32)))
      (cmpi .sle idx (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- The plain gather of the wrapped rows. -/
def gatherRows (xp : FVec Ideal S100000x128 .f32) (src : IVec S1600000 32) : FVec Ideal S1600000x128 .f32 :=
  Host.gather gather_S100000x128_S1600000x1_S1600000x128_1_0_n_n_0_1_1128 xp (wrapIdx src)

/-- The fill-mode take: the gathered rows where the wrapped index passes the range test, the fill value elsewhere. -/
def takeFill (xp : FVec Ideal S100000x128 .f32) (src : IVec S1600000 32) : FVec Ideal S1600000x128 .f32 :=
  select (broadcastInDim S1600000x128 ![0] bcast_S1600000_S1600000x128_0 (inBounds (wrapIdx src)))
    (gatherRows xp src)
    (broadcastInDim S1600000x128 ![] bcast_S_S1600000x128 (constant (F := Ideal) S_ .f32 0x7FC00000#32))

/-- The degree-normalised aggregation: rows summed by destination, each destination row divided by
    `max(number of edges into it, 1)`. -/
def meanAgg (rows : FVec Ideal S1600000x128 .f32) (dst : IVec S1600000 32) : FVec Ideal S100000x128 .f32 :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst) rows)
    (broadcastInDim S100000x128 ![0, 1] bcast_S100000x1_S100000x128_0_1
      (broadcastInDim S100000x1 ![0] bcast_S100000_S100000x1_0
        (maximumf (F := Ideal)
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

/-- Every source index is a valid NumPy index into 100000 rows: `-100000 ≤ s < 100000` as a signed word. -/
def InRange (src : IVec S1600000 32) : Prop :=
  ∀ j : S1600000.Idx, -((100000 : ℕ) : ℤ) ≤ (src j).toInt ∧ (src j).toInt < ((100000 : ℕ) : ℤ)

/-- Each entry of the wrapped column is the wrap of one source word. -/
theorem wrapIdx_apply (src : IVec S1600000 32) (i : S1600000x1.Idx) :
    ∃ j : S1600000.Idx, wrapIdx src i = IndexWrap.wrapWord 100000#32 (src j) := ⟨_, rfl⟩

/-- In range, every wrapped index passes the range test. -/
theorem inBounds_wrap (src : IVec S1600000 32) (h : InRange src) (j : S1600000.Idx) : inBounds (wrapIdx src) j = 1#1 := by
  unfold inBounds
  refine IndexWrap.reduce_andi_of_all _ _ _ _ (fun _ => rfl) (fun i => ?_) j
  obtain ⟨j', hj'⟩ := wrapIdx_apply src i
  show IntOp.andi (IntOp.cmpi .sge (wrapIdx src i) 0#32) (IntOp.cmpi .sle (wrapIdx src i) 99999#32) = 1#1
  rw [hj']
  exact IndexWrap.rangeTest_wrap 100000 (by norm_num) (by norm_num) 99999#32 (by decide) _ (h j').1 (h j').2

/-- In range, the fill-mode take is the plain gather: the mask is all ones and the fill value is never read. -/
theorem takeFill_eq (xp : FVec Ideal S100000x128 .f32) (src : IVec S1600000 32) (h : InRange src) :
    takeFill xp src = gatherRows xp src := by
  unfold takeFill
  refine IndexWrap.select_of_ones _ _ _ fun i => ?_
  exact inBounds_wrap src h _

end Cert.KernelIdeal.Tail

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.KernelValue.lean ====
/-
  The idealized kernel's four results as functions of the launch memory.

  @main is two regions and then five stretches of host operations. Each stretch is read at the buffers the results
  depend on, from ANY contents `V` it may start from: the first stretch slices relation 1's edge list into its
  source and destination rows; the second is the fill-mode take of the first projection at the sources; the third
  the mean aggregation of those rows by destination, and the slices of relation 2's edge list; the fourth and fifth
  the same take and aggregation for relation 2 over the second projection. A buffer a stretch does not write keeps
  what it held. Composed with the two regions' arrays (the projections), the last boundary's contents at the four
  results are: the two projections, and for each relation
  `meanAgg (takeFill projection sources) destinations`.
-/
import proofs.«419152_j39633958208184_3_alg».proof.Proof.Gen.KernelIdeal.Frame
import proofs.«419152_j39633958208184_3_alg».proof.Proof.Proj
import proofs.«419152_j39633958208184_3_alg».proof.Proof.Tail
import proofs.«419152_j39633958208184_3_alg».proof.Proof.LibTRef
import Idealize.ShloMosaic.Lib.StableHlo.Run

set_option maxRecDepth 16384

noncomputable section

namespace Cert.KernelIdeal.TailValue

open Cert.KernelIdeal Cert.KernelIdeal.Gen Cert.KernelIdeal.Proj Cert.KernelIdeal.Tail
open Idealize.ShloMosaic Idealize.ShloMosaic.TcCoe Idealize.SL.Sem Idealize.ShloMosaic.StableHlo

-- the reductions, gathers and scatters are folds over 1 600 000 edges: no equation below looks inside one
attribute [local irreducible] Host.reduce Host.gather Host.scatterAdd

/-! ## Each stretch, from any contents -/

section Stretches
variable (V : Valuation τ sig (Elt Ideal))

/-- Stretch 1 writes the sources and the destinations of relation 1's edges. -/
theorem s1_v3 : StableHlo.after (hostOps2 (F := Ideal)) V (Proc.devRef .tc main_v3) = srcOf (V (Proc.devRef .tc main_arg4)) := by
  after_results; rfl
theorem s1_v5 : StableHlo.after (hostOps2 (F := Ideal)) V (Proc.devRef .tc main_v5) = dstOf (V (Proc.devRef .tc main_arg4)) := by
  after_results; rfl
theorem s1_v0 : StableHlo.after (hostOps2 (F := Ideal)) V (Proc.devRef .tc main_v0) = V (Proc.devRef .tc main_v0) := by after_results
theorem s1_v1 : StableHlo.after (hostOps2 (F := Ideal)) V (Proc.devRef .tc main_v1) = V (Proc.devRef .tc main_v1) := by after_results
theorem s1_arg5 : StableHlo.after (hostOps2 (F := Ideal)) V (Proc.devRef .tc main_arg5) = V (Proc.devRef .tc main_arg5) := by after_results

set_option maxHeartbeats 2000000 in
/-- Stretch 2 is the fill-mode take of the first projection at relation 1's sources. -/
theorem s2_v6 : StableHlo.after (hostOps2_1 (F := Ideal)) V (Proc.devRef .tc main_v6)
    = takeFill (V (Proc.devRef .tc main_v0)) (V (Proc.devRef .tc main_v3)) := by
  after_results_simp
  simp only [TRef.ofBuf_toBuf]
  rfl
theorem s2_v5 : StableHlo.after (hostOps2_1 (F := Ideal)) V (Proc.devRef .tc main_v5) = V (Proc.devRef .tc main_v5) := by after_results
theorem s2_v0 : StableHlo.after (hostOps2_1 (F := Ideal)) V (Proc.devRef .tc main_v0) = V (Proc.devRef .tc main_v0) := by after_results
theorem s2_v1 : StableHlo.after (hostOps2_1 (F := Ideal)) V (Proc.devRef .tc main_v1) = V (Proc.devRef .tc main_v1) := by after_results
theorem s2_arg5 : StableHlo.after (hostOps2_1 (F := Ideal)) V (Proc.devRef .tc main_arg5) = V (Proc.devRef .tc main_arg5) := by after_results

set_option maxHeartbeats 2000000 in
/-- Stretch 3 aggregates relation 1's taken rows by destination, and slices relation 2's edge list. -/
theorem s3_v18 : StableHlo.after (hostOps2_2 (F := Ideal)) V (Proc.devRef .tc main_v18)
    = meanAgg (V (Proc.devRef .tc main_v6)) (V (Proc.devRef .tc main_v5)) := by
  after_results_simp
  rfl
theorem s3_v20 : StableHlo.after (hostOps2_2 (F := Ideal)) V (Proc.devRef .tc main_v20) = srcOf (V (Proc.devRef .tc main_arg5)) := by
  after_results; rfl
theorem s3_v22 : StableHlo.after (hostOps2_2 (F := Ideal)) V (Proc.devRef .tc main_v22) = dstOf (V (Proc.devRef .tc main_arg5)) := by
  after_results; rfl
theorem s3_v0 : StableHlo.after (hostOps2_2 (F := Ideal)) V (Proc.devRef .tc main_v0) = V (Proc.devRef .tc main_v0) := by after_results
theorem s3_v1 : StableHlo.after (hostOps2_2 (F := Ideal)) V (Proc.devRef .tc main_v1) = V (Proc.devRef .tc main_v1) := by after_results

set_option maxHeartbeats 2000000 in
/-- Stretch 4 is the fill-mode take of the second projection at relation 2's sources. -/
theorem s4_v23 : StableHlo.after (hostOps2_3 (F := Ideal)) V (Proc.devRef .tc main_v23)
    = takeFill (V (Proc.devRef .tc main_v1)) (V (Proc.devRef .tc main_v20)) := by
  after_results_simp
  simp only [TRef.ofBuf_toBuf]
  rfl
theorem s4_v18 : StableHlo.after (hostOps2_3 (F := Ideal)) V (Proc.devRef .tc main_v18) = V (Proc.devRef .tc main_v18) := by after_results
theorem s4_v22 : StableHlo.after (hostOps2_3 (F := Ideal)) V (Proc.devRef .tc main_v22) = V (Proc.devRef .tc main_v22) := by after_results
theorem s4_v0 : StableHlo.after (hostOps2_3 (F := Ideal)) V (Proc.devRef .tc main_v0) = V (Proc.devRef .tc main_v0) := by after_results
theorem s4_v1 : StableHlo.after (hostOps2_3 (F := Ideal)) V (Proc.devRef .tc main_v1) = V (Proc.devRef .tc main_v1) := by after_results

set_option maxHeartbeats 2000000 in
/-- Stretch 5 aggregates relation 2's taken rows by destination. -/
theorem s5_v35 : StableHlo.after (hostOps2_4 (F := Ideal)) V (Proc.devRef .tc main_v35)
    = meanAgg (V (Proc.devRef .tc main_v23)) (V (Proc.devRef .tc main_v22)) := by
  after_results_simp
  rfl
theorem s5_v18 : StableHlo.after (hostOps2_4 (F := Ideal)) V (Proc.devRef .tc main_v18) = V (Proc.devRef .tc main_v18) := by after_results
theorem s5_v0 : StableHlo.after (hostOps2_4 (F := Ideal)) V (Proc.devRef .tc main_v0) = V (Proc.devRef .tc main_v0) := by after_results
theorem s5_v1 : StableHlo.after (hostOps2_4 (F := Ideal)) V (Proc.devRef .tc main_v1) = V (Proc.devRef .tc main_v1) := by after_results

end Stretches

/-! ## From the launch memory -/

section Run
variable (m : (ℓ : Loc nD τ sig) → Buf (Elt Ideal) ℓ) (ρ : Dev nD → PrngReg)

/-- Neither region writes an edge list. -/
theorem W2_arg4 (c : Dev nD) : W2 m ρ c (Proc.devRef .tc main_arg4) = m ((c : Thread nD τ).loc main_arg4) :=
  (W2_of_ne m ρ c main_arg4 (by decide)).trans ((W1_of_ne m ρ c main_arg4 (by decide)).trans rfl)
theorem W2_arg5 (c : Dev nD) : W2 m ρ c (Proc.devRef .tc main_arg5) = m ((c : Thread nD τ).loc main_arg5) :=
  (W2_of_ne m ρ c main_arg5 (by decide)).trans ((W1_of_ne m ρ c main_arg5 (by decide)).trans rfl)

/-- After both regions the first result array is the first projection (region 1 does not touch it). -/
theorem W2_v0 (c : Dev nD) : W2 m ρ c (Proc.devRef .tc main_v0)
    = proj (m ((c : Thread nD τ).loc main_arg0)) (m ((c : Thread nD τ).loc main_arg2)) :=
  (W2_of_ne m ρ c main_v0 (by decide)).trans ((W1_arr m ρ c 2).trans (final0 (V0 m ρ) c))

/-- After both regions the second result array is the second projection: region 1 is entered with its input and
    weight as launched, region 0 having written neither. -/
theorem W2_v1 (c : Dev nD) : W2 m ρ c (Proc.devRef .tc main_v1)
    = proj (m ((c : Thread nD τ).loc main_arg1)) (m ((c : Thread nD τ).loc main_arg3)) := by
  have e1 : V1 m ρ c main_arg1 = m ((c : Thread nD τ).loc main_arg1) := (W1_of_ne m ρ c main_arg1 (by decide)).trans rfl
  have e3 : V1 m ρ c main_arg3 = m ((c : Thread nD τ).loc main_arg3) := (W1_of_ne m ρ c main_arg3 (by decide)).trans rfl
  exact (W2_arr m ρ c 2).trans ((final1 (V1 m ρ) c).trans (congrArg₂ proj e1 e3))

/-- The first projection is still in its array at the end. -/
theorem W7_v0 (c : Dev nD) : W7 m ρ c (Proc.devRef .tc main_v0)
    = proj (m ((c : Thread nD τ).loc main_arg0)) (m ((c : Thread nD τ).loc main_arg2)) :=
  (s5_v0 (W6 m ρ c)).trans ((s4_v0 (W5 m ρ c)).trans ((s3_v0 (W4 m ρ c)).trans ((s2_v0 (W3 m ρ c)).trans
    ((s1_v0 (W2 m ρ c)).trans (W2_v0 m ρ c)))))

/-- The second projection is still in its array at the end. -/
theorem W7_v1 (c : Dev nD) : W7 m ρ c (Proc.devRef .tc main_v1)
    = proj (m ((c : Thread nD τ).loc main_arg1)) (m ((c : Thread nD τ).loc main_arg3)) :=
  (s5_v1 (W6 m ρ c)).trans ((s4_v1 (W5 m ρ c)).trans ((s3_v1 (W4 m ρ c)).trans ((s2_v1 (W3 m ρ c)).trans
    ((s1_v1 (W2 m ρ c)).trans (W2_v1 m ρ c)))))

/-- Relation 1's result: the mean aggregation, by destination, of the fill-mode take of the first projection. -/
theorem W7_v18 (c : Dev nD) : W7 m ρ c (Proc.devRef .tc main_v18)
    = meanAgg (takeFill (proj (m ((c : Thread nD τ).loc main_arg0)) (m ((c : Thread nD τ).loc main_arg2)))
        (srcOf (m ((c : Thread nD τ).loc main_arg4)))) (dstOf (m ((c : Thread nD τ).loc main_arg4))) := by
  have e5 : W7 m ρ c (Proc.devRef .tc main_v18) = W6 m ρ c (Proc.devRef .tc main_v18) := s5_v18 (W6 m ρ c)
  have e4 : W6 m ρ c (Proc.devRef .tc main_v18) = W5 m ρ c (Proc.devRef .tc main_v18) := s4_v18 (W5 m ρ c)
  have e3 : W5 m ρ c (Proc.devRef .tc main_v18) = meanAgg (W4 m ρ c (Proc.devRef .tc main_v6)) (W4 m ρ c (Proc.devRef .tc main_v5)) := s3_v18 (W4 m ρ c)
  have e2a : W4 m ρ c (Proc.devRef .tc main_v6) = takeFill (W3 m ρ c (Proc.devRef .tc main_v0)) (W3 m ρ c (Proc.devRef .tc main_v3)) := s2_v6 (W3 m ρ c)
  have e2b : W4 m ρ c (Proc.devRef .tc main_v5) = W3 m ρ c (Proc.devRef .tc main_v5) := s2_v5 (W3 m ρ c)
  have e1a : W3 m ρ c (Proc.devRef .tc main_v0) = W2 m ρ c (Proc.devRef .tc main_v0) := s1_v0 (W2 m ρ c)
  have e1b : W3 m ρ c (Proc.devRef .tc main_v3) = srcOf (W2 m ρ c (Proc.devRef .tc main_arg4)) := s1_v3 (W2 m ρ c)
  have e1c : W3 m ρ c (Proc.devRef .tc main_v5) = dstOf (W2 m ρ c (Proc.devRef .tc main_arg4)) := s1_v5 (W2 m ρ c)
  rw [e5, e4, e3, e2a, e2b, e1a, e1b, e1c, W2_v0, W2_arg4]

/-- Relation 2's result: the same over the second projection and the second edge list. -/
theorem W7_v35 (c : Dev nD) : W7 m ρ c (Proc.devRef .tc main_v35)
    = meanAgg (takeFill (proj (m ((c : Thread nD τ).loc main_arg1)) (m ((c : Thread nD τ).loc main_arg3)))
        (srcOf (m ((c : Thread nD τ).loc main_arg5)))) (dstOf (m ((c : Thread nD τ).loc main_arg5))) := by
  have e5 : W7 m ρ c (Proc.devRef .tc main_v35) = meanAgg (W6 m ρ c (Proc.devRef .tc main_v23)) (W6 m ρ c (Proc.devRef .tc main_v22)) := s5_v35 (W6 m ρ c)
  have e4a : W6 m ρ c (Proc.devRef .tc main_v23) = takeFill (W5 m ρ c (Proc.devRef .tc main_v1)) (W5 m ρ c (Proc.devRef .tc main_v20)) := s4_v23 (W5 m ρ c)
  have e4b : W6 m ρ c (Proc.devRef .tc main_v22) = W5 m ρ c (Proc.devRef .tc main_v22) := s4_v22 (W5 m ρ c)
  have e3a : W5 m ρ c (Proc.devRef .tc main_v1) = W4 m ρ c (Proc.devRef .tc main_v1) := s3_v1 (W4 m ρ c)
  have e3b : W5 m ρ c (Proc.devRef .tc main_v20) = srcOf (W4 m ρ c (Proc.devRef .tc main_arg5)) := s3_v20 (W4 m ρ c)
  have e3c : W5 m ρ c (Proc.devRef .tc main_v22) = dstOf (W4 m ρ c (Proc.devRef .tc main_arg5)) := s3_v22 (W4 m ρ c)
  have e2a : W4 m ρ c (Proc.devRef .tc main_v1) = W3 m ρ c (Proc.devRef .tc main_v1) := s2_v1 (W3 m ρ c)
  have e2b : W4 m ρ c (Proc.devRef .tc main_arg5) = W3 m ρ c (Proc.devRef .tc main_arg5) := s2_arg5 (W3 m ρ c)
  have e1a : W3 m ρ c (Proc.devRef .tc main_v1) = W2 m ρ c (Proc.devRef .tc main_v1) := s1_v1 (W2 m ρ c)
  have e1b : W3 m ρ c (Proc.devRef .tc main_arg5) = W2 m ρ c (Proc.devRef .tc main_arg5) := s1_arg5 (W2 m ρ c)
  rw [e5, e4a, e4b, e3a, e3b, e3c, e2a, e2b, e1a, e1b, W2_v1, W2_arg5]

end Run

end Cert.KernelIdeal.TailValue

end
-- ==== Proof.RefValue.lean ====
/-
  The reference's projection is the kernel's.

  The reference computes `x @ W.T` as a transpose of `W` followed by a `dot_general` contracting `x`'s columns
  with the transposed weight's rows. Read at an index (r, j) that is `Σₖ x[r, k] · Wᵀ[k, j] = Σₖ x[r, k] · W[j, k]`:
  term by term the sum `proj x W` that each Pallas region leaves in its result array. No reordering of the sum and
  no finiteness of the inputs is needed: the two sums have the same terms in the same order.
-/
import proofs.«419152_j39633958208184_3_alg».proof.Proof.Gen.ReferenceIdeal.Run
import proofs.«419152_j39633958208184_3_alg».proof.Proof.Gen.ReferenceIdeal.Read
import proofs.«419152_j39633958208184_3_alg».proof.Proof.Proj
import proofs.«419152_j39633958208184_3_alg».proof.Proof.Tail

noncomputable section

namespace Cert.ReferenceIdeal.RefValue

open Cert.ReferenceIdeal Cert.ReferenceIdeal.Gen Cert.ReferenceIdeal.Read
open Idealize.ShloMosaic Idealize.ShloMosaic.TcCoe Idealize.SL.Sem

/-- The left operand of the reference's contraction at (r, j), k is the input at (r, k). -/
theorem lidx_eq (i : S100000x128.Idx) (k : Fin 256) : lidx_main_v1 i k = Cert.KernelIdeal.Proj.xIdx i k :=
  funext fun a => Fin.ext (by match a with | ⟨0, _⟩ => rfl | ⟨1, _⟩ => rfl)

/-- The right operand, the transposed weight at (k, j), is the weight at (j, k). -/
theorem ridx_eq (i : S100000x128.Idx) (k : Fin 256) : idx_main_v0 (ridx_main_v1 i k) = Cert.KernelIdeal.Proj.wIdx i k :=
  funext fun a => Fin.ext (by match a with | ⟨0, _⟩ => rfl | ⟨1, _⟩ => rfl)

/-- Transpose then `dot_general` is `proj`: entry (r, j) is `Σₖ x[r, k] · w[j, k]`. -/
theorem dot_eq_proj (x : FVec Ideal S100000x256 .f32) (w : FVec Ideal S128x256 .f32) :
    Host.dotGeneral (F := Ideal) dot_S100000x256_S256x128_S100000x128_1_0_0_1_n_n none x
        (transpose S256x128 [1, 0] w transposes_S128x256_S256x128_1_0)
      = Cert.KernelIdeal.Proj.proj x w := by
  funext i
  show val_main_v1 (F := Ideal) x w i = _
  rw [val_main_v1_apply]
  unfold Cert.KernelIdeal.Proj.proj
  refine Finset.sum_congr rfl fun k _ => ?_
  rw [val_main_v0_apply, lidx_eq, ridx_eq]

open Cert.KernelIdeal.Tail in
/-- The reference's aggregation for one relation, over the kernel's projection. -/
theorem spmm_eq (x : FVec Ideal S100000x256 .f32) (w : FVec Ideal S128x256 .f32) (ei : IVec S2x1600000 32) :
    meanAgg (gatherRows (Host.dotGeneral (F := Ideal) dot_S100000x256_S256x128_S100000x128_1_0_0_1_n_n none x
        (transpose S256x128 [1, 0] w transposes_S128x256_S256x128_1_0)) (srcOf ei)) (dstOf ei)
      = meanAgg (gatherRows (Cert.KernelIdeal.Proj.proj x w) (srcOf ei)) (dstOf ei) := by
  rw [dot_eq_proj]

end Cert.ReferenceIdeal.RefValue

end
-- ==== Proof.PreRange.lean ====
/-
  What the precondition says of the source indices.

  The precondition is a conjunction of bits: four finiteness tests of the float inputs and, for each edge list, two
  tests of its source row `s`: `all (s ≥ -100000)` and `all (s < 100000)`, each an `and`-reduction of signed word
  compares from the bit 1. The conjunction being 1 makes each reduction 1, hence every compare 1: every source index
  of both relations lies in `[-100000, 100000)` as a signed integer.
-/
import proofs.«419152_j39633958208184_3_alg».proof.Pre_finite_inputs
import proofs.«419152_j39633958208184_3_alg».proof.Proof.Gen.Pre_finite_inputs
import proofs.«419152_j39633958208184_3_alg».proof.Proof.Tail
import Idealize.ShloMosaic.Lib.ReduceAll
import Idealize.ShloMosaic.Lib.ValueIdx

noncomputable section

namespace Cert.Pre_finite_inputs.Range

open Cert.Pre_finite_inputs Idealize.ShloMosaic
open Cert.KernelIdeal.Tail (InRange srcOf)

instance : Subsingleton S_.Idx := ⟨fun a b => funext fun d => d.elim0⟩

attribute [local irreducible] Host.reduce

/-- One source row in range, from its two `all` bits. -/
theorem inRange_of_bits (ei : IVec S2x1600000 32)
    (hge : Host.reduce IntOp.andi
        (cmpi .sge (shapeCast S1600000 (extractStridedSlice S1x1600000 ![0, 0] ei Facts.slices_S2x1600000_S1x1600000_0_0) Facts.shapeCasts_S1x1600000_S1600000)
          (broadcastInDim S1600000 ![] Facts.bcast_S_S1600000 (constantI S_ 32 4294867296#32)))
        (constantI S_ 1 1#1) Facts.reducesTo_S1600000_S_d0 Facts.h_S_ ValueIdx.ix0 = 1#1)
    (hlt : Host.reduce IntOp.andi
        (cmpi .slt (shapeCast S1600000 (extractStridedSlice S1x1600000 ![0, 0] ei Facts.slices_S2x1600000_S1x1600000_0_0) Facts.shapeCasts_S1x1600000_S1600000)
          (broadcastInDim S1600000 ![] Facts.bcast_S_S1600000 (constantI S_ 32 100000#32)))
        (constantI S_ 1 1#1) Facts.reducesTo_S1600000_S_d0 Facts.h_S_ ValueIdx.ix0 = 1#1) :
    InRange (srcOf ei) := by
  intro j
  have h1 := Host.reduce_andi_all _ _ _ _ _ hge j
  have h2 := Host.reduce_andi_all _ _ _ _ _ hlt j
  have e1 : (4294867296#32 : BitVec 32).toInt = -((100000 : ℕ) : ℤ) := by decide
  have e2 : (100000#32 : BitVec 32).toInt = ((100000 : ℕ) : ℤ) := by decide
  constructor
  · have := IntOp.cmpi_sge.1 h1
    rw [← e1]; exact this
  · have := IntOp.cmpi_slt.1 h2
    rw [← e2]; exact this

/-- The precondition puts both relations' source indices in range. -/
theorem ranges (x0 x1 : FVec Ideal S100000x256 .f32) (x2 x3 : FVec Ideal S128x256 .f32) (e4 e5 : IVec S2x1600000 32)
    (h : fn (F := Ideal) x0 x1 x2 x3 e4 e5 = fun _ => 1#1) : InRange (srcOf e4) ∧ InRange (srcOf e5) := by
  have h0 := congrFun h ValueIdx.ix0
  simp only [fn, fn_part1, fn_part2] at h0
  obtain ⟨h1, h41⟩ := IntOp.andi_eq_one.1 h0
  obtain ⟨h2, h35⟩ := IntOp.andi_eq_one.1 h1
  obtain ⟨h3, h29⟩ := IntOp.andi_eq_one.1 h2
  obtain ⟨h4, h23⟩ := IntOp.andi_eq_one.1 h3
  exact ⟨inRange_of_bits e4 h23 h29, inRange_of_bits e5 h35 h41⟩

end Cert.Pre_finite_inputs.Range

end
-- ==== Proof.lean ====
/-
  Two linear projections followed, per edge type, by a degree-normalised neighbour mean.

  Both programs return, for the two node types, `xp = x · Wᵀ` (entry (r, j) = Σₖ x[r, k] · W[j, k]) and, for the two
  edge lists, the mean over each destination node's incoming edges of the source nodes' projected rows:
  rows gathered at the (NumPy-wrapped) source indices, summed by destination, divided by max(degree, 1).

  The kernel computes each projection in a Pallas region, 20 row blocks of 5000, with bf16 casts that are the identity
  on the extended reals; the reference as a transpose and a `dot_general`: the same sum, term by term (no finiteness
  is used). The kernel gathers with `take` in fill mode, which replaces the rows whose wrapped index is outside
  `[0, 99999]` by a fill value, where the reference's indexing gathers and nothing else. The precondition puts every
  source index in `[-100000, 100000)`, the range in which the reference's own indexing is in bounds; there every
  wrapped index is in `[0, 99999]`, the kernel's mask is all ones and its take is the reference's gather. What follows
  the gather (the two scatter-adds, the maximum with 1, the division) is one and the same function in both programs and
  is never opened.

  The three frames: the kernel's two are the generated frames of its regions and host stretches; the reference's is
  its run with the results dropped. The idealization rewrote nothing, so `preserves` has no conjunct.
-/
import proofs.«419152_j39633958208184_3_alg».proof.Defs
import proofs.«419152_j39633958208184_3_alg».proof.Proof.Gen.Kernel
import proofs.«419152_j39633958208184_3_alg».proof.Proof.Gen.Kernel.Skeleton
import proofs.«419152_j39633958208184_3_alg».proof.Proof.Gen.Kernel.Launch
import proofs.«419152_j39633958208184_3_alg».proof.Proof.Gen.Kernel.Points
import proofs.«419152_j39633958208184_3_alg».proof.Proof.Gen.Kernel.Frame
import proofs.«419152_j39633958208184_3_alg».proof.Proof.Gen.KernelIdeal
import proofs.«419152_j39633958208184_3_alg».proof.Proof.Gen.KernelIdeal.Skeleton
import proofs.«419152_j39633958208184_3_alg».proof.Proof.Gen.KernelIdeal.Launch
import proofs.«419152_j39633958208184_3_alg».proof.Proof.Gen.KernelIdeal.Points
import proofs.«419152_j39633958208184_3_alg».proof.Proof.Gen.KernelIdeal.Frame
import proofs.«419152_j39633958208184_3_alg».proof.Proof.Gen.ReferenceIdeal
import proofs.«419152_j39633958208184_3_alg».proof.Proof.Gen.ReferenceIdeal.Run
import proofs.«419152_j39633958208184_3_alg».proof.Proof.Gen.Pre_finite_inputs
import proofs.«419152_j39633958208184_3_alg».proof.Proof.KernelRun
import proofs.«419152_j39633958208184_3_alg».proof.Proof.KernelValue
import proofs.«419152_j39633958208184_3_alg».proof.Proof.RefValue
import proofs.«419152_j39633958208184_3_alg».proof.Proof.PreRange
import Idealize.ShloMosaic.Adequacy
import Idealize.ShloMosaic.Init

noncomputable section

namespace Cert.Proof

open Idealize.ShloMosaic Idealize.SL.Sem
open Cert.KernelIdeal.Proj (proj)
open Cert.KernelIdeal.Tail (meanAgg gatherRows takeFill takeFill_eq srcOf dstOf)

-- the reductions, gathers and scatters are folds over 1 600 000 edges: no equation below looks inside one
attribute [local irreducible] Host.reduce Host.gather Host.scatterAdd

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both programs end with the two projections and the two neighbour means of the same arguments. -/
theorem algebraic : Cert.algebraic_KernelIdeal_ReferenceIdeal := by
  intro m ρ m' ρ' hpre hagree
  refine ⟨fun c => meanAgg (gatherRows (proj (m ((c.tc : Thread Cert.KernelIdeal.nD Cert.KernelIdeal.τ).loc Cert.KernelIdeal.main_arg0)) (m ((c.tc : Thread Cert.KernelIdeal.nD Cert.KernelIdeal.τ).loc Cert.KernelIdeal.main_arg2))) (srcOf (m ((c.tc : Thread Cert.KernelIdeal.nD Cert.KernelIdeal.τ).loc Cert.KernelIdeal.main_arg4)))) (dstOf (m ((c.tc : Thread Cert.KernelIdeal.nD Cert.KernelIdeal.τ).loc Cert.KernelIdeal.main_arg4))),
    fun c => proj (m ((c.tc : Thread Cert.KernelIdeal.nD Cert.KernelIdeal.τ).loc Cert.KernelIdeal.main_arg0)) (m ((c.tc : Thread Cert.KernelIdeal.nD Cert.KernelIdeal.τ).loc Cert.KernelIdeal.main_arg2)),
    fun c => meanAgg (gatherRows (proj (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (srcOf (m ((c.tc : Thread Cert.KernelIdeal.nD Cert.KernelIdeal.τ).loc Cert.KernelIdeal.main_arg5)))) (dstOf (m ((c.tc : Thread Cert.KernelIdeal.nD Cert.KernelIdeal.τ).loc Cert.KernelIdeal.main_arg5))),
    fun c => proj (m ((c.tc : Thread Cert.KernelIdeal.nD Cert.KernelIdeal.τ).loc Cert.KernelIdeal.main_arg1)) (m ((c.tc : Thread Cert.KernelIdeal.nD Cert.KernelIdeal.τ).loc Cert.KernelIdeal.main_arg3)), ?_, ?_⟩
  · -- the kernel: its results at the last boundary's contents, the fill-mode take the plain gather in range
    refine (θ_run Cert.KernelIdeal.defs _ _).mono (fun r h c => ?_) (Cert.KernelIdeal.RunValue.run_values (F := Ideal) m ρ)
    obtain ⟨h18, h0, h35, h1, hargs⟩ := h c
    obtain ⟨r4, r5⟩ := Cert.Pre_finite_inputs.Range.ranges _ _ _ _ _ _ (hpre c)
    refine ⟨?_, ?_, ?_, ?_, hargs⟩
    · rw [h18, Cert.KernelIdeal.TailValue.W7_v18, takeFill_eq _ _ r4]
    · rw [h0, Cert.KernelIdeal.TailValue.W7_v0]
    · rw [h35, Cert.KernelIdeal.TailValue.W7_v35, takeFill_eq _ _ r5]
    · rw [h1, Cert.KernelIdeal.TailValue.W7_v1]
  · -- the reference: its run's terms at the kernel's arguments, the projection read as the same sum
    refine (θ_run Cert.ReferenceIdeal.defs _ _).mono (fun r h c => ?_) (Cert.ReferenceIdeal.Value.run (F := Ideal) m' ρ')
    obtain ⟨h26, h1, h49, h3, hargs⟩ := h c
    obtain ⟨g0, g1, g2, g3, g4, g5⟩ := hagree c
    refine ⟨?_, ?_, ?_, ?_, hargs⟩
    · rw [h26, g0, g2, g4]; exact Cert.ReferenceIdeal.RefValue.spmm_eq _ _ _
    · rw [h1, g0, g2]; exact Cert.ReferenceIdeal.RefValue.dot_eq_proj _ _
    · rw [h49, g1, g3, g5]; exact Cert.ReferenceIdeal.RefValue.spmm_eq _ _ _
    · rw [h3, g1, g3]; exact Cert.ReferenceIdeal.RefValue.dot_eq_proj _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
